-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩

abbrev nBuf : Space → Nat
  | .hbm => 70
  | .vmem => 5
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S100000, .i32⟩
  | .hbm, ⟨10, _⟩ => ⟨S3300000, .i32⟩
  | .hbm, ⟨11, _⟩ => ⟨S3300000, .i32⟩
  | .hbm, ⟨12, _⟩ => ⟨S_, .f32⟩
  | .hbm, ⟨13, _⟩ => ⟨S100000, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x16, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x1, .f32⟩
  | .hbm, ⟨61, _⟩ => ⟨S3300000x16, .f32⟩
  | .hbm, ⟨62, _⟩ => ⟨S3300000x16, .f32⟩
  | .hbm, ⟨63, _⟩ => ⟨S_, .f32⟩
  | .hbm, ⟨64, _⟩ => ⟨S100000x16, .f32⟩
  | .hbm, ⟨65, _⟩ => ⟨S3300000x1, .i32⟩
  | .hbm, ⟨66, _⟩ => ⟨S100000x16, .f32⟩
  | .hbm, ⟨67, _⟩ => ⟨S1x16, .f32⟩
  | .hbm, ⟨68, _⟩ => ⟨S100000x16, .f32⟩
  | .hbm, ⟨69, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩

abbrev nBuf : Space → Nat
  | .hbm => 70
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S100000, .i32⟩
  | .hbm, ⟨10, _⟩ => ⟨S3300000, .i32⟩
  | .hbm, ⟨11, _⟩ => ⟨S3300000, .i32⟩
  | .hbm, ⟨12, _⟩ => ⟨S_, .f32⟩
  | .hbm, ⟨13, _⟩ => ⟨S100000, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x16, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x1, .f32⟩
  | .hbm, ⟨61, _⟩ => ⟨S3300000x16, .f32⟩
  | .hbm, ⟨62, _⟩ => ⟨S3300000x16, .f32⟩
  | .hbm, ⟨63, _⟩ => ⟨S_, .f32⟩
  | .hbm, ⟨64, _⟩ => ⟨S100000x16, .f32⟩
  | .hbm, ⟨65, _⟩ => ⟨S3300000x1, .i32⟩
  | .hbm, ⟨66, _⟩ => ⟨S100000x16, .f32⟩
  | .hbm, ⟨67, _⟩ => ⟨S1x16, .f32⟩
  | .hbm, ⟨68, _⟩ => ⟨S100000x16, .f32⟩
  | .hbm, ⟨69, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.Aggregate.lean ====
/-
  The graph-convolution aggregation that both programs apply to the projected features.

  With `n = 100000` nodes and `E = 3200000` edges, the edge list is extended by one self-loop per node, so
  there are `E + n = 3300000` entries.  For the extended source row `s`, destination row `d` and weights `w`
  (the given weights followed by ones):

    deg v   = the sum of `w e` over the entries with `d e = v`                       (a scatter-add into zeros)
    dis v   = `rsqrt (max (deg v) ε)` where `deg v > 0`, and `0` elsewhere
    norm e  = `dis (s e) · w e · dis (d e)`                                          (negative indices wrapped by `n`)
    out v j = the sum of `h (s e) j · norm e` over the entries with `d e = v`, plus `b j`.

  Everything here is a function of the edge list, the weights, the bias and the projected features `h`;
  nothing looks inside `h`.  The two programs differ only in how `h = x · W` is produced, so each of their
  results is `propagate` of its own `h`.
-/
import proofs.«181119_j66958540144842_1_alg».proof.KernelIdeal

noncomputable section

namespace Cert.Gcn

open Idealize.ShloMosaic Cert.KernelIdeal Cert.KernelIdeal.Facts₀ Cert.KernelIdeal.Facts

variable {F : FTy → Type} [FloatOps F] [Cert.KernelIdeal.Facts]

/-- Row `r` of the edge list, followed by the node numbers `0, 1, …, n - 1` (the self-loops). -/
def withLoops (r : Fin 2 → ℕ) (hr : S2x3200000.Slices r S1x3200000)
    (a1 : (⟨S2x3200000, .i32⟩ : BufTy).Contents (Elt F)) : (⟨S3300000, .i32⟩ : BufTy).Contents (Elt F) :=
  concatenate S3300000 0 [⟨S3200000, (shapeCast _ (extractStridedSlice S1x3200000 r a1 hr) shapeCasts_S1x3200000_S3200000)⟩,
    ⟨S100000, (iotaInDim S100000 32 0)⟩] concatenates_S3200000_S100000_S3300000_d0

/-- The extended source row. -/
def src (a1 : (⟨S2x3200000, .i32⟩ : BufTy).Contents (Elt F)) : (⟨S3300000, .i32⟩ : BufTy).Contents (Elt F) :=
  withLoops ![0, 0] slices_S2x3200000_S1x3200000_0_0 a1

/-- The extended destination row. -/
def dst (a1 : (⟨S2x3200000, .i32⟩ : BufTy).Contents (Elt F)) : (⟨S3300000, .i32⟩ : BufTy).Contents (Elt F) :=
  withLoops ![1, 0] slices_S2x3200000_S1x3200000_1_0 a1

/-- The edge weights followed by a one for every self-loop. -/
def wts (a2 : (⟨S3200000, .f32⟩ : BufTy).Contents (Elt F)) : (⟨S3300000, .f32⟩ : BufTy).Contents (Elt F) :=
  concatenate S3300000 0 [⟨S3200000, a2⟩,
    ⟨S100000, (broadcastInDim S100000 ![] bcast_S_S100000 (constant S_ .f32 0x3F800000#32))⟩] concatenates_S3200000_S100000_S3300000_d0

/-- A negative index counted from the end: `i + n` where `i < 0`, else `i`. -/
def wrap (i : (⟨S3300000, .i32⟩ : BufTy).Contents (Elt F)) : (⟨S3300000, .i32⟩ : BufTy).Contents (Elt F) :=
  select (cmpi .slt i (broadcastInDim S3300000 ![] bcast_S_S3300000 (constantI S_ 32 0#32)))
    (addi i (broadcastInDim S3300000 ![] bcast_S_S3300000 (constantI S_ 32 100000#32))) i

/-- The weighted in-degree of every node. -/
def deg (a1 : (⟨S2x3200000, .i32⟩ : BufTy).Contents (Elt F)) (a2 : (⟨S3200000, .f32⟩ : BufTy).Contents (Elt F)) :
    (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 (dst a1)) (wts a2)

/-- The inverse square root of the degree where it is positive, zero elsewhere. -/
def dis (a1 : (⟨S2x3200000, .i32⟩ : BufTy).Contents (Elt F)) (a2 : (⟨S3200000, .f32⟩ : BufTy).Contents (Elt F)) :
    (⟨S100000, .f32⟩ : BufTy).Contents (Elt F) :=
  select (cmpf .ogt (deg a1 a2) (broadcastInDim S100000 ![] bcast_S_S100000 (constant S_ .f32 0x00000000#32)))
    (Host.rsqrt (maximumf (deg a1 a2) (broadcastInDim S100000 ![] bcast_S_S100000 (constant S_ .f32 0x2B8CBCCC#32))))
    (broadcastInDim S100000 ![] bcast_S_S100000 (id (constant S_ .f32 0x00000000#32)))

/-- The symmetric normalisation of every entry: `dis (src e) · w e · dis (dst e)`. -/
def norm (a1 : (⟨S2x3200000, .i32⟩ : BufTy).Contents (Elt F)) (a2 : (⟨S3200000, .f32⟩ : BufTy).Contents (Elt F)) :
    (⟨S3300000, .f32⟩ : BufTy).Contents (Elt F) :=
  mulf (mulf (Host.gather gather_S100000_S3300000x1_S3300000_n_0_n_n_0_1_1 (dis a1 a2)
      (broadcastInDim S3300000x1 ![0] bcast_S3300000_S3300000x1_0 (wrap (src a1)))) (wts a2))
    (Host.gather gather_S100000_S3300000x1_S3300000_n_0_n_n_0_1_1 (dis a1 a2)
      (broadcastInDim S3300000x1 ![0] bcast_S3300000_S3300000x1_0 (wrap (dst a1))))

/-- The aggregation: every entry sends row `src e` of `h`, scaled by `norm e`, to node `dst e`; the bias is added
    to every row of the sums. -/
def propagate (a1 : (⟨S2x3200000, .i32⟩ : BufTy).Contents (Elt F)) (a2 : (⟨S3200000, .f32⟩ : BufTy).Contents (Elt F))
    (a4 : (⟨S16, .f32⟩ : BufTy).Contents (Elt F)) (h : (⟨S100000x16, .f32⟩ : BufTy).Contents (Elt F)) :
    (⟨S100000x16, .f32⟩ : BufTy).Contents (Elt F) :=
  addf (Host.scatterAdd scatter_S100000x16_S3300000x1_S3300000x16_1_0_0_1
      (broadcastInDim S100000x16 ![] bcast_S_S100000x16 (constant S_ .f32 0x00000000#32))
      (broadcastInDim S3300000x1 ![0] bcast_S3300000_S3300000x1_0 (dst a1))
      (mulf (Host.gather gather_S100000x16_S3300000x1_S3300000x16_1_0_n_n_0_1_116 h
          (broadcastInDim S3300000x1 ![0] bcast_S3300000_S3300000x1_0 (wrap (src a1))))
        (broadcastInDim S3300000x16 ![0, 1] bcast_S3300000x1_S3300000x16_0_1
          (broadcastInDim S3300000x1 ![0] bcast_S3300000_S3300000x1_0 (norm a1 a2)))))
    (broadcastInDim S100000x16 ![0, 1] bcast_S1x16_S100000x16_0_1 (broadcastInDim S1x16 ![1] bcast_S16_S1x16_1 a4))

end Cert.Gcn

end
-- ==== Proof.Product.lean ====
/-
  The projected features `h = x · W`: the product of the `100000 × 512` feature matrix with the `512 × 16`
  weight matrix, `h i j = ∑ k, x i k · W k j` on the extended reals.

  The kernel computes it in twenty blocks of rows: block `t` is rows `5000 t … 5000 t + 4999` of `x`
  times the whole of `W`.  A change of float format is the identity on the extended reals, so rounding
  the operands to bf16 first does not change a block's product, and a block's entry `(p, q)` is the sum
  over `k` of the block's `(p, k)` times `W`'s `(k, q)` — entry `(5000 t + p, q)` of the whole product.
-/
import Idealize.ShloMosaic.Lib.StackMember

noncomputable section

namespace Cert.Gcn

open Idealize.ShloMosaic Idealize.ShloMosaic.ValueIdx

/-- The whole product `x · W`, as the host computes it in one piece. -/
def product (x : FVec Ideal ⟨2, ![100000, 512]⟩ .f32) (W : FVec Ideal ⟨2, ![512, 16]⟩ .f32) :
    FVec Ideal ⟨2, ![100000, 16]⟩ .f32 :=
  Host.dotGeneral (DotDims.plain 100000 512 16) none x W

/-- Its entry `(r, q)` is `∑ k, x (r, k) · W (k, q)`. -/
theorem product_apply (x : FVec Ideal ⟨2, ![100000, 512]⟩ .f32) (W : FVec Ideal ⟨2, ![512, 16]⟩ .f32)
    (r : Fin 100000) (q : Fin 16) :
    product x W (ix2 r q) = ∑ k : Fin 512, x (ix2 r k) * W (ix2 k q) :=
  StackMember.dotGeneral_plain_apply none x W r q

/-- A block's product into a zero accumulator, with both operands first rounded to a narrower format: its
    entry `(p, q)` is `∑ k, a (p, k) · b (k, q)`, the rounding being the identity on the extended reals. -/
theorem block_apply (a : FVec Ideal ⟨2, ![5000, 512]⟩ .f32) (b : FVec Ideal ⟨2, ![512, 16]⟩ .f32)
    (h : FTy.bits .bf16 < FTy.bits .f32) (p : Fin 5000) (q : Fin 16) :
    matmul (DotDims.plain 5000 512 16) none (truncf .bf16 a h) (truncf .bf16 b h)
        (constant ⟨2, ![5000, 16]⟩ .f32 0x00000000#32) (ix2 p q)
      = ∑ k : Fin 512, a (ix2 p k) * b (ix2 k q) := by
  rw [matmul_zero_eq_dotGeneral]
  exact StackMember.dotGeneral_plain_apply none a b p q

end Cert.Gcn

end
-- ==== Proof.KernelProjection.lean ====
/-
  What the kernel region leaves in the projected-features array: the whole product `x · W`.

  The region runs twenty grid points.  Point `t` reads rows `5000 t … 5000 t + 4999` of `x` (its block of
  the first window), the whole of `W` (the second window's one block), and writes rows `5000 t … 5000 t + 4999`
  of the result (its block of the third window).  The body stores one value, the block's product into a zero
  accumulator, so entry `(p, q)` of what point `t` writes back is `∑ k, x (5000 t + p, k) · W (k, q)`: the
  entry `(5000 t + p, q)` of the whole product.  Row `r` lies in the block of point `r / 5000`, so the twenty
  blocks cover the array and it ends holding the whole product.
-/
import proofs.«181119_j66958540144842_1_alg».proof.Proof.Gen.KernelIdeal.Frame
import proofs.«181119_j66958540144842_1_alg».proof.Proof.Product
import Idealize.ShloMosaic.Lib.Pipeline.Value

set_option maxRecDepth 16384

noncomputable section

namespace Cert.KernelIdeal.Proj

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The two argument arrays the region reads, as it finds them, at their literal types. -/
abbrev feats (c : Dev nD) : FVec Ideal S100000x512 .f32 := V m c main_arg0
abbrev wmat (c : Dev nD) : FVec Ideal S512x16 .f32 := V m c main_arg3

/-- The body's loads and its store start at the origin of their buffers. -/
theorem origin : (![0, 0] : Fin 2 → Nat) = fun _ => 0 := funext fun a => by fin_cases a <;> rfl

/-- The body's one stored value, at entry `(p, q)` of its block: `∑ k, a (p, k) · b (k, q)`. -/
theorem payload_apply (a : Vec Ideal S5000x512 .f32) (b : Vec Ideal S512x16 .f32) (p : Fin 5000) (q : Fin 16) :
    k0_pay1 (F := Ideal) a b (ix2 p q) = ∑ k : Fin 512, a (ix2 p k) * b (ix2 k q) :=
  Cert.Gcn.block_apply a b _ p q

/-- Where the windows' blocks sit, decided over the twenty grid points: the feature block and the result block
    of point `t` are block row `t`, and the weight block is always the whole matrix. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays as the region finds them. -/
theorem flushed_eq (c : Dev nD) (t : Fin cfg0.N) :
    (dats m 0 c).flushed 2 t = ((cfg0.win 2).blk t).view.read (Elt Ideal)
      (Cert.Gcn.product (feats m c) (wmat m c)) := by
  show (cfg0.win 2).cut (grid0.coords t) ((dats m 0 c).after 2 t) = _
  rw [after0_2]
  unfold out0_2
  rw [View.canon_unit_zero origin]
  simp only [View.ld_unit_zero (S := S5000x512) origin, View.ld_unit_zero (S := S512x16) origin]
  obtain ⟨e0, e1, e2, e3, e4, e5⟩ := block_indices t
  funext j
  obtain ⟨p, q, rfl⟩ : ∃ (p : Fin 5000) (q : Fin 16), j = ix2 p q := ⟨j 0, j 1, eq_ix2 j⟩
  have ht : t.val < 20 := lt_of_lt_of_eq t.isLt N_0
  have hp : p.val < 5000 := p.isLt
  show k0_pay1 (F := Ideal) (iblk m c 0 t) (iblk m c 1 t) (ix2 p q)
    = Cert.Gcn.product (feats m c) (wmat m c) (((cfg0.win 2).blk t).view.emb (ix2 p q))
  -- entry (p, q) of the result block is entry (5000 t + p, q) of the array
  have hout : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 16 + 1 * q.val = q.val; omega
  rw [hout, Cert.Gcn.product_apply]
  refine (payload_apply (iblk m c 0 t) (iblk m c 1 t) p q).trans ?_
  refine Finset.sum_congr rfl fun k _ => ?_
  show feats m c (((cfg0.win 0).blk t).view.emb (ix2 p k)) * wmat m c (((cfg0.win 1).blk t).view.emb (ix2 k q))
    = feats m c (ix2 (⟨t.val * 5000 + p.val, by omega⟩ : Fin 100000) k) * wmat m c (ix2 k q)
  -- entry (p, k) of the feature block is entry (5000 t + p, k) of `x`; the weight block is `W` itself
  have hx : ((cfg0.win 0).blk t).view.emb (ix2 p k) = ix2 (⟨t.val * 5000 + p.val, by omega⟩ : Fin 100000) k := by
    funext a; apply Fin.ext
    match a with
    | ⟨0, _⟩ => show win0_0.index t (0 : Fin 2) * 5000 + 1 * p.val = t.val * 5000 + p.val; omega
    | ⟨1, _⟩ => show win0_0.index t (1 : Fin 2) * 512 + 1 * k.val = k.val; omega
  have hw : ((cfg0.win 1).blk t).view.emb (ix2 k q) = ix2 k q := by
    funext a; apply Fin.ext
    match a with
    | ⟨0, _⟩ => show win0_1.index t (0 : Fin 2) * 512 + 1 * k.val = k.val; omega
    | ⟨1, _⟩ => show win0_1.index t (1 : Fin 2) * 16 + 1 * q.val = q.val; omega
  rw [hx, hw]

/-- An index of the result array is in point `t`'s block iff each coordinate is in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v34).slice (win0_2.rect t)).set ↔ _
  rw [View.set_slice_whole, Rect.mem_set_unit]
  exact Iff.rfl

/-- Row `r` of the result is written back by point `r / 5000`. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  let t : Fin cfg0.N := ⟨(i 0).val / 5000, by omega⟩
  obtain ⟨-, -, -, -, e4, e5⟩ := block_indices t
  have e4' : win0_2.index t (0 : Fin 2) = (i 0).val / 5000 := e4
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The result array after the region: the whole product of the two arguments as launched. -/
theorem projected (c : Dev nD) : (dats m 0 c).arrAt 2 cfg0.N
    = Cert.Gcn.product (m ((c : Thread nD τ).loc main_arg0)) (m ((c : Thread nD τ).loc main_arg3)) := by
  have hx : feats m c = m ((c : Thread nD τ).loc main_arg0) := V_main_arg0 m c
  have hw : wmat m c = m ((c : Thread nD τ).loc main_arg3) := V_main_arg3 m c
  rw [← hx, ← hw]
  exact (dats m 0 c).arrAt_eq_of_cover 2 _ (fun t _ => flushed_eq m c t) covered

end Cert.KernelIdeal.Proj

end
-- ==== Proof.KernelAggregate.lean ====
/-
  The kernel program's result: the aggregation of what its region leaves.

  Around the region the program runs the same host operations as the reference.  Those before the region
  build, from the edge list and the weights alone, the extended source and destination rows and the
  normalisation of every entry; those after it gather rows of the region's result array, scale them, add
  them up per destination node and add the bias.  Read back operation by operation, the final result is
  `Cert.Gcn.propagate` of the arguments and of the region's result array, at any float instance; at the
  extended reals that array is the whole product `x · W`.
-/
import proofs.«181119_j66958540144842_1_alg».proof.Proof.Gen.KernelIdeal.Frame
import proofs.«181119_j66958540144842_1_alg».proof.Proof.Aggregate
import proofs.«181119_j66958540144842_1_alg».proof.Proof.KernelProjection
import Idealize.ShloMosaic.Lib.Pipeline.Value
import Idealize.ShloMosaic.Lib.StableHlo.Run

set_option maxRecDepth 16384

noncomputable section

namespace Cert.KernelIdeal.Agg

open Idealize.ShloMosaic Idealize.ShloMosaic.TcCoe Idealize.SL.Sem Idealize.ShloMosaic.ValueIdx
open Cert.KernelIdeal Cert.KernelIdeal.Gen

section AnyFloats

variable {F : FTy → Type} [FloatOps F]
variable (m : (ℓ : Loc nD τ sig) → Buf (Elt F) ℓ)

set_option maxHeartbeats 4000000 in
/-- The extended source row, as the region finds it. -/
theorem entry_src (c : Dev nD) : V m c main_v5 = Cert.Gcn.src (F := F) (m ((c : Thread nD τ).loc main_arg1)) := by
  dsimp only [V, V0]
  simp only [hostOps0, hostOps0_1, hostOps0_2, List.flatten_cons, List.flatten_nil, List.append_nil, List.cons_append, List.nil_append]
  after_results_simp
  rfl

set_option maxHeartbeats 4000000 in
/-- The extended destination row, as the region finds it. -/
theorem entry_dst (c : Dev nD) : V m c main_v6 = Cert.Gcn.dst (F := F) (m ((c : Thread nD τ).loc main_arg1)) := by
  dsimp only [V, V0]
  simp only [hostOps0, hostOps0_1, hostOps0_2, List.flatten_cons, List.flatten_nil, List.append_nil, List.cons_append, List.nil_append]
  after_results_simp
  rfl

set_option maxHeartbeats 40000000 in
/-- The normalisation of every entry, as the region finds it: the degrees, their inverse square roots where
    positive, and the two gathers, all computed before the region. -/
theorem entry_norm (c : Dev nD) : V m c main_v33
    = Cert.Gcn.norm (F := F) (m ((c : Thread nD τ).loc main_arg1)) (m ((c : Thread nD τ).loc main_arg2)) := by
  dsimp only [V, V0]
  simp only [hostOps0, hostOps0_1, hostOps0_2, List.flatten_cons, List.flatten_nil, List.append_nil, List.cons_append, List.nil_append]
  after_results_simp
  rfl

set_option maxHeartbeats 4000000 in
/-- The program's result buffer after the host operations that follow the region: the aggregation of the
    region's result array.  Those operations read five buffers: the region's result array, which holds what
    the region left, and four that the region does not touch, which hold what they held at its entry. -/
theorem tail_eq (c : Dev nD) :
    Pipeline.afterTail₀ cfgs (dats m) 0 (V0 m) [hostOps1] c main_v50
      = Cert.Gcn.propagate (F := F) (m ((c : Thread nD τ).loc main_arg1)) (m ((c : Thread nD τ).loc main_arg2))
          (m ((c : Thread nD τ).loc main_arg4)) ((dats m 0 c).arrAt 2 cfg0.N) := by
  have h34 : Pipeline.withArrays (cfgs 0).spec c (V0 m c) (fun w => (dats m 0 c).arrAt w (cfgs 0).N) (Proc.devRef .tc main_v34)
      = (dats m 0 c).arrAt 2 cfg0.N := Pipeline.withArrays_arr spec0 launch0.win.arr_inj c _ _ 2
  have h5 : Pipeline.withArrays (cfgs 0).spec c (V0 m c) (fun w => (dats m 0 c).arrAt w (cfgs 0).N) (Proc.devRef .tc main_v5)
      = V m c main_v5 := Pipeline.withArrays_of_ne _ c (V0 m c) _ main_v5 (by exact (by decide : ∀ w, Pipeline.arrRef spec0 w ≠ main_v5))
  have h6 : Pipeline.withArrays (cfgs 0).spec c (V0 m c) (fun w => (dats m 0 c).arrAt w (cfgs 0).N) (Proc.devRef .tc main_v6)
      = V m c main_v6 := Pipeline.withArrays_of_ne _ c (V0 m c) _ main_v6 (by exact (by decide : ∀ w, Pipeline.arrRef spec0 w ≠ main_v6))
  have h33 : Pipeline.withArrays (cfgs 0).spec c (V0 m c) (fun w => (dats m 0 c).arrAt w (cfgs 0).N) (Proc.devRef .tc main_v33)
      = V m c main_v33 := Pipeline.withArrays_of_ne _ c (V0 m c) _ main_v33 (by exact (by decide : ∀ w, Pipeline.arrRef spec0 w ≠ main_v33))
  have h4 : Pipeline.withArrays (cfgs 0).spec c (V0 m c) (fun w => (dats m 0 c).arrAt w (cfgs 0).N) (Proc.devRef .tc main_arg4)
      = V m c main_arg4 := Pipeline.withArrays_of_ne _ c (V0 m c) _ main_arg4 (by exact (by decide : ∀ w, Pipeline.arrRef spec0 w ≠ main_arg4))
  unfold Pipeline.afterTail₀
  show StableHlo.after hostOps1 _ (Proc.devRef .tc main_v50) = _
  after_results_simp
  rw [h34, h5, h6, h33, h4, entry_src, entry_dst, entry_norm, V_main_arg4]
  rfl

end AnyFloats

section AtTheExtendedReals

variable (m : (ℓ : Loc nD τ sig) → Buf (Elt Ideal) ℓ) (ρ : Dev nD → PrngReg)

/-- The kernel program's result, as a function of the arguments alone: the aggregation of `x · W`. -/
abbrev result (c : Dev nD) : Buf (Elt Ideal) ((c.tc : Thread nD τ).loc main_v50) :=
  Cert.Gcn.propagate (F := Ideal) (m ((c : Thread nD τ).loc main_arg1)) (m ((c : Thread nD τ).loc main_arg2))
    (m ((c : Thread nD τ).loc main_arg4))
    (Cert.Gcn.product (m ((c : Thread nD τ).loc main_arg0)) (m ((c : Thread nD τ).loc main_arg3)))

/-- Every weakly fair execution of the kernel program terminates with the result buffer at `result` and the
    arguments unchanged: the frame run, with the result buffer read through the host operations after the
    region and the region's array read as the whole product. -/
theorem run : θ_run defs (onTc (τ := τ) (main (F := Ideal))) ⟨m, fun _ => 0, ρ⟩ fun r => ∀ c : Dev nD,
      r.2.mem ((c.tc : Thread nD τ).loc main_v50) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v50 (Pipeline.mem_restRefs_of main_v50 (by decide) (by decide))).trans
        ((tail_eq m c).trans (by rw [Cert.KernelIdeal.Proj.projected m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c)⟩)
    (run_main m ρ)

end AtTheExtendedReals

end Cert.KernelIdeal.Agg

end
-- ==== Proof.ReferenceAggregate.lean ====
/-
  The reference's result is the aggregation of the whole product.

  The reference computes `h = x · W` by one host product and then applies, operation for operation, the
  aggregation of `Cert.Gcn.propagate` to it; its run's composed term is that function of the arguments.
-/
import proofs.«181119_j66958540144842_1_alg».proof.Proof.Gen.ReferenceIdeal.Run
import proofs.«181119_j66958540144842_1_alg».proof.Proof.Gen.KernelIdeal
import proofs.«181119_j66958540144842_1_alg».proof.Proof.Aggregate
import proofs.«181119_j66958540144842_1_alg».proof.Proof.Product

set_option maxRecDepth 16384

noncomputable section

namespace Cert.ReferenceIdeal.Agg

open Idealize.ShloMosaic Idealize.ShloMosaic.TcCoe Idealize.SL.Sem
open Cert.ReferenceIdeal Cert.ReferenceIdeal.Gen Cert.ReferenceIdeal.Value

set_option maxHeartbeats 4000000 in
/-- The reference's result term is `propagate` of the edge list, the weights, the bias and `x · W`: the two
    spell the same operations over the same shapes and dimension numbers. -/
theorem result_eq (m : (ℓ : Loc nD τ sig) → Buf (Elt Ideal) ℓ) (c : Dev nD) :
    res_out0 (F := Ideal) m c
      = Cert.Gcn.propagate (F := Ideal) (m ((c.tc : Thread nD τ).loc main_arg1)) (m ((c.tc : Thread nD τ).loc main_arg2))
          (m ((c.tc : Thread nD τ).loc main_arg4))
          (Cert.Gcn.product (m ((c.tc : Thread nD τ).loc main_arg0)) (m ((c.tc : Thread nD τ).loc main_arg3))) := by
  unfold res_out0 res_main_v50
  rfl

end Cert.ReferenceIdeal.Agg

end
-- ==== Proof.lean ====
/-
  A graph-convolution layer: `out = Â (x · W) + b`, where `Â` is the edge list with a self-loop added at every
  node and symmetrically normalised by the inverse square roots of the weighted in-degrees.

  The kernel program and the reference run the same host operations for everything but the projection
  `h = x · W`: the reference takes it in one host product, the kernel program in a region of twenty grid
  points, each multiplying a block of 5000 rows of `x` (rounded to bf16, as `W` is) by `W` into a zero
  accumulator.  On the extended reals a change of float format is the identity and a product into zeros is
  the plain sum over the contracted axis, so the region leaves the whole product (Proof/KernelProjection.lean),
  and both results are the same aggregation (Proof/Aggregate.lean) of the same `h` (Proof/KernelAggregate.lean,
  Proof/ReferenceAggregate.lean).  No arithmetic law beyond that is used, and nothing is asked of the inputs.
  The idealisation rewrote no operation, so there is nothing to preserve; the three programs' runs leave
  their arguments unchanged.
-/
import proofs.«181119_j66958540144842_1_alg».proof.Defs
import proofs.«181119_j66958540144842_1_alg».proof.Proof.Gen.Kernel
import proofs.«181119_j66958540144842_1_alg».proof.Proof.Gen.Kernel.Skeleton
import proofs.«181119_j66958540144842_1_alg».proof.Proof.Gen.Kernel.Launch
import proofs.«181119_j66958540144842_1_alg».proof.Proof.Gen.Kernel.Points
import proofs.«181119_j66958540144842_1_alg».proof.Proof.Gen.Kernel.Frame
import proofs.«181119_j66958540144842_1_alg».proof.Proof.Gen.KernelIdeal
import proofs.«181119_j66958540144842_1_alg».proof.Proof.Gen.KernelIdeal.Skeleton
import proofs.«181119_j66958540144842_1_alg».proof.Proof.Gen.KernelIdeal.Launch
import proofs.«181119_j66958540144842_1_alg».proof.Proof.Gen.KernelIdeal.Points
import proofs.«181119_j66958540144842_1_alg».proof.Proof.Gen.KernelIdeal.Frame
import proofs.«181119_j66958540144842_1_alg».proof.Proof.Gen.ReferenceIdeal
import proofs.«181119_j66958540144842_1_alg».proof.Proof.Gen.Pre_finite_inputs
import proofs.«181119_j66958540144842_1_alg».proof.Proof.Gen.ReferenceIdeal.Run
import proofs.«181119_j66958540144842_1_alg».proof.Proof.KernelAggregate
import proofs.«181119_j66958540144842_1_alg».proof.Proof.ReferenceAggregate
import Idealize.ShloMosaic.Adequacy
import Idealize.ShloMosaic.Init

noncomputable section

namespace Cert.Proof

open Idealize.ShloMosaic Idealize.SL.Sem

/-- The kernel program runs and keeps its arguments, at the machine's words. -/
theorem frame_kernel : Cert.frame_Kernel := fun m ρ _ => Cert.Kernel.Gen.frame m ρ

/-- The same at the extended reals. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the aggregation of `x · W`. -/
theorem algebraic : Cert.algebraic_KernelIdeal_ReferenceIdeal := by
  intro m ρ m' ρ' _ hagree
  refine ⟨fun c => Cert.KernelIdeal.Agg.result m c, Cert.KernelIdeal.Agg.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  refine (Cert.ReferenceIdeal.Agg.result_eq m' c).trans ?_
  rw [h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
